-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4x4096x4096 : Shape := ⟨3, ![4, 4096, 4096]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  iota_S1x1024_d1_w32 : S1x1024.Iotas .tc 32 [1]
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  broadcasts_S1x1024_S1024x1024 : S1x1024.Broadcasts S1024x1024
  transposes_S1024x1024_p1_0_S1024x1024 : S1024x1024.Transposes [1, 0] S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S4x4096x4096.size a
  hwx0_2 : ∀ i : grid0.Coords, EltTy.bits .f32 = 32 ∨ (Rect.block (s := S4x4096x4096) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4x4096x4096 : Shape := ⟨3, ![4, 4096, 4096]⟩
abbrev S4096x1024 : Shape := ⟨2, ![4096, 1024]⟩
abbrev S1 : Shape := ⟨1, ![1]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S_, .f32⟩
  | .hbm, ⟨3, _⟩ => ⟨S4x4096x4096, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S_, .i32⟩
  | .hbm, ⟨8, _⟩ => ⟨S1, .i32⟩
  | .hbm, ⟨9, _⟩ => ⟨S4x4096x4096, .f32⟩
  | .hbm, ⟨10, _⟩ => ⟨S4096x1024, .f32⟩
  | .hbm, ⟨11, _⟩ => ⟨S4096x1024, .f32⟩
  | .hbm, ⟨12, _⟩ => ⟨S4096x4096, .f32⟩
  | .hbm, ⟨13, _⟩ => ⟨S_, .i32⟩
  | .hbm, ⟨14, _⟩ => ⟨S1, .i32⟩
  | .hbm, ⟨15, _⟩ => ⟨S4x4096x4096, .f32⟩
  | .hbm, ⟨16, _⟩ => ⟨S4096x1024, .f32⟩
  | .hbm, ⟨17, _⟩ => ⟨S4096x1024, .f32⟩
  | .hbm, ⟨18, _⟩ => ⟨S4096x4096, .f32⟩
  | .hbm, ⟨19, _⟩ => ⟨S_, .i32⟩
  | .hbm, ⟨20, _⟩ => ⟨S1, .i32⟩
  | .hbm, ⟨21, _⟩ => ⟨S4x4096x4096, .f32⟩
  | .hbm, ⟨22, _⟩ => ⟨S4096x512, .f32⟩
  | .hbm, ⟨23, _⟩ => ⟨S4096x512, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S_, .i32⟩
  | .hbm, ⟨29, _⟩ => ⟨S1, .i32⟩
  | .hbm, ⟨30, _⟩ => ⟨S4x4096x4096, .f32⟩
  | .hbm, ⟨31, _⟩ => ⟨S4096x512, .f32⟩
  | .hbm, ⟨32, _⟩ => ⟨S4096x512, .f32⟩
  | .hbm, ⟨33, _⟩ => ⟨S4096x4096, .f32⟩
  | .hbm, ⟨34, _⟩ => ⟨S_, .f32⟩
  | .hbm, ⟨35, _⟩ => ⟨S4096x4096, .f32⟩
  | .hbm, ⟨36, _⟩ => ⟨S4096x4096, .f32⟩
  | .hbm, ⟨37, _⟩ => ⟨S_, .i32⟩
  | .hbm, ⟨38, _⟩ => ⟨S1, .i32⟩
  | .hbm, ⟨39, _⟩ => ⟨S4x4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_c_5 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  slices_S4096x4096_S4096x1024_0_0 : S4096x4096.Slices ![0, 0] S4096x1024
  bcast_S_S1 : S_.BroadcastsInDim S1 (![] : Fin 0 → Fin S1.rank)
  slices_S4096x4096_S4096x1024_0_1024 : S4096x4096.Slices ![0, 1024] S4096x1024
  slices_S4096x4096_S4096x1024_0_2048 : S4096x4096.Slices ![0, 2048] S4096x1024
  slices_S4096x4096_S4096x512_0_3072 : S4096x4096.Slices ![0, 3072] S4096x512
  bcast_S_S4096x4096 : S_.BroadcastsInDim S4096x4096 (![] : Fin 0 → Fin S4096x4096.rank)
  slices_S4096x4096_S4096x512_0_3584 : S4096x4096.Slices ![0, 3584] S4096x512
  dot_S4096x1024_S4096x1024_S4096x4096_1_1_0_0_n_n_wf : DotDims.WF S4096x1024 S4096x1024 S4096x4096 [1] [1] [0] [0] [] []
  scatter_S4x4096x4096_S1_S4096x4096_01_0_0_0_wf : ScatterDims.WF S4x4096x4096 S1 S4096x4096 [0, 1] [0] [0] 0
  dot_S4096x512_S4096x512_S4096x4096_1_1_0_0_n_n_wf : DotDims.WF S4096x512 S4096x512 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def scatter_S4x4096x4096_S1_S4096x4096_01_0_0_0 : ScatterDims S4x4096x4096 S1 S4096x4096 where
  updateWindowDims := [0, 1]
  insertedWindowDims := [0]
  scatterDimsToOperandDims := [0]
  indexVectorDim := 0
  wf := scatter_S4x4096x4096_S1_S4096x4096_01_0_0_0_wf
def dot_S4096x512_S4096x512_S4096x4096_1_1_0_0_n_n : DotDims S4096x512 S4096x512 S4096x4096 where
  lhsContracting := [1]
  rhsContracting := [1]
  lhsNonContracting := [0]
  rhsNonContracting := [0]
  lhsBatch := []
  rhsBatch := []
  wf := dot_S4096x512_S4096x512_S4096x4096_1_1_0_0_n_n_wf

class Facts : Prop extends Facts₀ where

variable [Facts]
-- ==== Proof.LibPlainDot.lean ====
/-
  A plain matrix product read at an entry.

  For dimension numbers that contract the left operand's second axis with the right operand's first axis, with no
  batch axes — an M×K array times a K×N array — the contraction's sum at the result entry (p, q) is the textbook
  `∑ i : Fin K, lhs (p, i) * rhs (i, q)`.  The statement is for ANY such record (its well-formedness proof is
  irrelevant), so it serves a kernel's `tpu.matmul` and a host `dot_general` at every size alike.
-/
import Idealize.ShloMosaic.Lib.ValueIdx
import Idealize.ShloMosaic.PureOps.Ideal.Laws

noncomputable section

open scoped BigOperators

namespace PlainDot

open Idealize.ShloMosaic Idealize.ShloMosaic.ValueIdx

variable {M K N : Nat}

/-- The dimension numbers of a plain product: contract axis 1 of the left operand with axis 0 of the right one;
    the left operand's axis 0 and the right operand's axis 1 are the result's axes; nothing is batched. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- The left operand's row coordinate is the result's row. -/
theorem lhs_row (h : IsPlain d) (j : (⟨2, ![M, N]⟩ : Shape).Idx) (k : d.contr.Idx) :
    (d.lhsIdx j k 0 : ℕ) = j 0 := by
  obtain ⟨lc, rc, ln, rn, lb, rb, wf⟩ := d
  obtain ⟨h1, h2, h3, h4, h5, h6⟩ := h
  simp only at h1 h2 h3 h4 h5 h6
  subst h1 h2 h3 h4 h5 h6
  simp [DotDims.lhsIdx]; rfl

/-- The right operand's column coordinate is the result's column. -/
theorem rhs_col (h : IsPlain d) (j : (⟨2, ![M, N]⟩ : Shape).Idx) (k : d.contr.Idx) :
    (d.rhsIdx j k 1 : ℕ) = j 1 := by
  obtain ⟨lc, rc, ln, rn, lb, rb, wf⟩ := d
  obtain ⟨h1, h2, h3, h4, h5, h6⟩ := h
  simp only at h1 h2 h3 h4 h5 h6
  subst h1 h2 h3 h4 h5 h6
  simp [DotDims.rhsIdx]; rfl

theorem contr_rank (h : IsPlain d) : d.contr.rank = 1 := by
  rw [d.rank_contr, h.lc]; rfl

theorem contr_size (h : IsPlain d) : d.contr.size ⟨0, by rw [contr_rank h]; exact Nat.one_pos⟩ = K := by
  obtain ⟨lc, rc, ln, rn, lb, rb, wf⟩ := d
  obtain ⟨h1, h2, h3, h4, h5, h6⟩ := h
  simp only at h1 h2 h3 h4 h5 h6
  subst h1 h2 h3 h4 h5 h6
  rfl

/-- THE SUM: over the one contracted axis, entry by entry. -/
theorem sum_eq (h : IsPlain d) (lhs : (⟨2, ![M, K]⟩ : Shape).Idx → EReal) (rhs : (⟨2, ![K, N]⟩ : Shape).Idx → EReal)
    (p : Fin M) (q : Fin N) :
    ∑ k : d.contr.Idx, lhs (d.lhsIdx (ix2 p q) k) * rhs (d.rhsIdx (ix2 p q) k) = ∑ i : Fin K, lhs (ix2 p i) * rhs (ix2 i q) := by
  rw [← Equiv.sum_comp (contrEquiv1 d K (contr_rank h) (contr_size h)).symm]
  refine Finset.sum_congr rfl fun i _ => ?_
  have hk := contrEquiv1_symm_val d K (contr_rank h) (contr_size h) i
  have el : d.lhsIdx (ix2 p q) ((contrEquiv1 d K (contr_rank h) (contr_size h)).symm i) = ix2 p i := by
    funext a; refine Fin.ext ?_
    match a with
    | ⟨0, _⟩ => exact lhs_row h _ _
    | ⟨1, _⟩ => exact (d.lhsIdx_val_of_single h.lc _ _).trans hk
  have er : d.rhsIdx (ix2 p q) ((contrEquiv1 d K (contr_rank h) (contr_size h)).symm i) = ix2 i q := by
    funext a; refine Fin.ext ?_
    match a with
    | ⟨0, _⟩ => exact (d.rhsIdx_val_of_single h.rc _ _).trans hk
    | ⟨1, _⟩ => exact rhs_col h _ _
  rw [el, er]

/-- A kernel's matrix product into a zero accumulator, at the exact instance, read at an entry. -/
theorem matmul_zero_apply (h : IsPlain d) {φ₁ φ₂ : FTy} (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ i : Fin K, lhs (ix2 p i) * rhs (ix2 i q) :=
  (Ideal.matmul_constant_zero_apply d prec lhs rhs (ix2 p q)).trans (sum_eq h lhs rhs p q)

/-- The host's `dot_general`, at the exact instance, read at an entry: the same sum. -/
theorem dotGeneral_apply (h : IsPlain d) {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ i : Fin K, lhs (ix2 p i) * rhs (ix2 i q) :=
  (Ideal.dotGeneral_apply d prec sched lhs rhs (ix2 p q)).trans (sum_eq h lhs rhs p q)

end PlainDot

end
-- ==== Proof.SegGram.lean ====
import Idealize.ShloMosaic.PureOps.Ideal
import Idealize.ShloMosaic.PureOps.Ideal.Laws
import Idealize.ShloMosaic.Lib.ValueIdx
import Mathlib.Algebra.BigOperators.Fin
import Mathlib.Data.EReal.Operations

/-!
# The segmented Gram product, and the law that joins its two spellings

`J_row` and `J_col` are `[4096, 4096]` arrays whose 4096 columns fall into four chunks of 1024. The result
is the `[4, 4096, 4096]` array whose slab `g` is the Gram product of the two arrays' chunk `g`,

  `out (g, p, q) = ∑ k < 1024, J_row (p, 1024 g + k) · (J_col (q, 1024 g + k) · w g k)`,

with the column weight `w g k = 1/2` on the second half (`k ≥ 512`) of the last chunk (`g = 3`) and `1`
everywhere else. One side computes it in this form (the weight multiplied into `J_col`'s columns before one
product over the whole chunk); the other adds, into zeros, the plain chunk product for `g < 3` and, for
`g = 3`, `1 ·` the product over the chunk's first half plus `1/2 ·` the product over its second half. The
two agree on the extended reals because the weight is a non-negative real: multiplying by such a number
distributes over any finite sum of extended reals, so no finiteness of the entries is needed.
-/

noncomputable section

open scoped BigOperators

namespace Cert.SegGram

open Idealize.ShloMosaic Idealize.ShloMosaic.ValueIdx

/-- The argument arrays' shape and the result's. -/
abbrev SA : Shape := ⟨2, ![4096, 4096]⟩
abbrev SO : Shape := ⟨3, ![4, 4096, 4096]⟩

/-- Column `k` of chunk `g`. -/
def col (g : Fin 4) (k : Fin 1024) : Fin 4096 := ⟨1024 * g.val + k.val, by have := g.isLt; have := k.isLt; omega⟩

/-- The two weights, as the float words both programs spell: `1.0` and `0.5`. -/
def one32 : EReal := Ideal.ofBits .f32 0x3F800000#32
def half32 : EReal := Ideal.ofBits .f32 0x3F000000#32

theorem one32_eq : one32 = 1 := by
  unfold one32
  simp [Ideal.ofBits, Ideal.ieee, -EReal.coe_mul]; norm_num

theorem half32_eq : half32 = (((1 : ℝ) / 2 : ℝ) : EReal) := by
  unfold half32
  simp [Ideal.ofBits, Ideal.ieee, -EReal.coe_mul]; norm_num

theorem half32_nonneg : 0 ≤ half32 := by
  rw [half32_eq]; exact EReal.coe_nonneg.2 (by norm_num)

theorem half32_ne_top : half32 ≠ ⊤ := by
  rw [half32_eq]; exact EReal.coe_ne_top _

/-- The weight of column `k` of chunk `g`. -/
def weight (g : Fin 4) (k : Fin 1024) : EReal :=
  if g.val = 3 then (if 512 ≤ k.val then half32 else one32) else one32

/-- THE RESULT, index by index, as one function of the two argument arrays. -/
def segGram (Jr Jc : SA.Idx → EReal) : SO.Idx → EReal := fun j =>
  ∑ k : Fin 1024, Jr (ix2 (j 1) (col (j 0) k)) * (Jc (ix2 (j 2) (col (j 0) k)) * weight (j 0) k)

/-! ## Sums -/

/-- A sum over 1024 places is the sum over the first 512 plus the sum over the last 512. -/
theorem sum_halves (f : Fin 1024 → EReal) :
    ∑ k : Fin 1024, f k
      = ∑ k : Fin 512, f ⟨k.val, by have := k.isLt; omega⟩ + ∑ k : Fin 512, f ⟨512 + k.val, by have := k.isLt; omega⟩ :=
  Fin.sum_univ_add (a := 512) (b := 512) f

/-- A non-negative real factor goes through a finite sum of extended reals, whatever the terms. -/
theorem mul_sum_of_nonneg {ι : Type} (s : Finset ι) (c : EReal) (h0 : 0 ≤ c) (ht : c ≠ ⊤) (f : ι → EReal) :
    c * ∑ k ∈ s, f k = ∑ k ∈ s, c * f k := by
  classical
  induction s using Finset.induction_on with
  | empty => simp
  | insert a s ha ih =>
    rw [Finset.sum_insert ha, Finset.sum_insert ha, EReal.left_distrib_of_nonneg_of_ne_top h0 ht, ih]

/-! ## The law -/

/-- A chunk with weight one throughout: the weighted sum is zero plus the plain sum. -/
theorem plain_chunk (a b : Fin 1024 → EReal) :
    ∑ k : Fin 1024, a k * (b k * one32) = (0 : EReal) + ∑ k : Fin 1024, a k * b k := by
  rw [zero_add]
  refine Finset.sum_congr rfl fun k _ => ?_
  rw [one32_eq, mul_one]

/-- The last chunk: weight one on its first half, one half on its second half. The weighted sum over the chunk is
    zero plus `1 ·` the first half's plain sum, plus `1/2 ·` the second half's. -/
theorem split_chunk (a b : Fin 1024 → EReal) :
    ∑ k : Fin 1024, a k * (b k * (if 512 ≤ k.val then half32 else one32))
      = ((0 : EReal) + one32 * ∑ k : Fin 512, a ⟨k.val, by have := k.isLt; omega⟩ * b ⟨k.val, by have := k.isLt; omega⟩)
        + half32 * ∑ k : Fin 512, a ⟨512 + k.val, by have := k.isLt; omega⟩ * b ⟨512 + k.val, by have := k.isLt; omega⟩ := by
  rw [sum_halves, zero_add, one32_eq, one_mul, mul_sum_of_nonneg _ half32 half32_nonneg half32_ne_top]
  congr 1
  · refine Finset.sum_congr rfl fun k _ => ?_
    have hk : ¬ 512 ≤ k.val := by have := k.isLt; omega
    show a _ * (b _ * (if 512 ≤ k.val then half32 else 1)) = _
    rw [if_neg hk, mul_one]
  · refine Finset.sum_congr rfl fun k _ => ?_
    have hk : 512 ≤ 512 + k.val := by omega
    show a _ * (b _ * (if 512 ≤ 512 + k.val then half32 else 1)) = _
    rw [if_pos hk, ← mul_assoc, mul_comm]

end Cert.SegGram

end
-- ==== Proof.BlockValue.lean ====
import proofs.«146533_j1949915152858_1_alg».proof.Proof.Gen.KernelIdeal.Skeleton
import proofs.«146533_j1949915152858_1_alg».proof.Proof.LibPlainDot
import proofs.«146533_j1949915152858_1_alg».proof.Proof.SegGram
import Idealize.ShloMosaic.Lib.Pipeline.Value
import Idealize.ShloMosaic.Lib.ValueIdx
import Idealize.ShloMosaic.Lib.StableHlo.Predicate

/-!
# What the body stores, entry by entry

At grid point `(g, i, j)` the body loads a `[1024, 1024]` block `x0` of `J_row` and one `x1` of `J_col`, multiplies
`x1`'s column `k` by the weight of column `k` of chunk `g` (built from the grid coordinate `g` and a lane counter:
`1/2` where `g = 3` and `k ≥ 512`, else `1`), and stores the product of `x0` with the transpose of that, as a
`[1, 1024, 1024]` block. On the extended reals the two narrowings to a shorter float format are the identity, so
entry `(0, p, q)` of what is stored is `∑ k, x0 (p, k) · (x1 (q, k) · weight g k)`.
-/

noncomputable section

open scoped BigOperators

namespace Cert.KernelIdeal.BlockValue

open Cert.KernelIdeal Cert.KernelIdeal.Gen Idealize.ShloMosaic Idealize.ShloMosaic.ValueIdx
open Idealize.ShloMosaic.StableHlo.Predicate Cert.SegGram

/-- The grid coordinate's word equals the word `3` exactly for the last chunk. -/
theorem word_eq_three : ∀ g : Fin 4, (IntOp.cmpi .eq (BitVec.ofNat 32 g.val) 3#32 = 1#1 ↔ g.val = 3) := by decide

/-- The lane counter's word is at least the word `512`, signed, exactly on the second half of the lanes. -/
theorem word_ge_512 (k : Fin 1024) : IntOp.cmpi .sge (BitVec.ofNat 32 k.val) 512#32 = 1#1 ↔ 512 ≤ k.val := by
  have hk : (BitVec.ofNat 32 k.val).toNat = k.val := by
    rw [BitVec.toNat_ofNat]; exact Nat.mod_eq_of_lt (by have := k.isLt; omega)
  have h512 : (512#32 : BitVec 32).toNat = 512 := by decide
  rw [sge_iff_toNat (by rw [hk]; have := k.isLt; omega) (by rw [h512]; omega), hk, h512]

/-- THE SCALE ROW the body builds, at lane `k`: the weight of column `k` of the point's chunk. -/
theorem scale_apply (i : grid0.Coords) (g : Fin 4) (hg : (i 0).val = g.val) (k : Fin 1024) :
    (Scalar.select (Scalar.cmpi .eq (BitVec.ofNat 32 (i 0).val) 3#32)
      (select (cmpi .sge (iota .tc S1x1024 32 [1] iota_S1x1024_d1_w32) (broadcast S1x1024 512#32))
        (broadcast S1x1024 (Scalar.ofBits (F := Ideal) .f32 0x3F000000#32))
        (broadcast S1x1024 (Scalar.ofBits (F := Ideal) .f32 0x3F800000#32)))
      (broadcast S1x1024 (Scalar.ofBits (F := Ideal) .f32 0x3F800000#32)) : FVec Ideal S1x1024 .f32) (ix2 0 k)
      = weight g k := by
  rw [hg]
  unfold weight
  by_cases h3 : g.val = 3
  · have hc : Scalar.cmpi .eq (BitVec.ofNat 32 g.val) 3#32 = 1#1 := (word_eq_three g).2 h3
    rw [if_pos h3, hc, select_one]
    show Scalar.select (IntOp.cmpi .sge (iota .tc S1x1024 32 [1] iota_S1x1024_d1_w32 (ix2 0 k)) 512#32) half32 one32 = _
    rw [iota_single_apply]
    show Scalar.select (IntOp.cmpi .sge (BitVec.ofNat 32 k.val) 512#32) half32 one32 = _
    by_cases h5 : 512 ≤ k.val
    · rw [if_pos h5, (word_ge_512 k).2 h5, select_one]
    · rw [if_neg h5, eq_zero_of_ne_one (fun h => h5 ((word_ge_512 k).1 h)), select_zero]
  · have hc : Scalar.cmpi .eq (BitVec.ofNat 32 g.val) 3#32 = 0#1 :=
      eq_zero_of_ne_one (fun h => h3 ((word_eq_three g).1 h))
    rw [if_neg h3, hc, select_zero]
    rfl

/-- The product's dimension numbers are the plain ones: rows by columns, one contracted axis. -/
theorem plain : PlainDot.IsPlain dot_S1024x1024_S1024x1024_S1024x1024_1_0_0_1_n_n := ⟨rfl, rfl, rfl, rfl, rfl, rfl⟩

/-- WHAT THE BODY STORES at entry `(0, p, q)`, from the two loaded blocks: the weighted product. -/
theorem pay_apply (i : grid0.Coords) (g : Fin 4) (hg : (i 0).val = g.val) (x0 x1 : Vec Ideal S1024x1024 .f32) (p q : Fin 1024) :
    k0_pay1 (F := Ideal) i x0 x1 (ix3 0 p q) = ∑ k : Fin 1024, x0 (ix2 p k) * (x1 (ix2 q k) * weight g k) := by
  unfold k0_pay1
  dsimp only
  -- the stored block is the [1024, 1024] product with a unit axis put in front
  refine (shapeCast_apply _ _ (ix3 0 p q) (ix2 p q) ?_).trans ?_
  · rw [Shape.rowMajor_val_two, Shape.rowMajor_val_three]
    show p.val * 1024 + q.val = ((0 : Fin 1).val * 1024 + p.val) * 1024 + q.val
    simp
  -- the product into the zero accumulator, entry (p, q)
  refine (PlainDot.matmul_zero_apply plain none _ _ p q).trans ?_
  refine Finset.sum_congr rfl fun k _ => ?_
  -- the left factor is the loaded block's entry; the right factor is read through the transpose, the product with
  -- the broadcast scale row, and the scale row itself
  refine congrArg (x0 (ix2 p k) * ·) ?_
  refine (transpose_apply [1, 0] _ _ (ix2 k q) (ix2 q k) (fun b => match b with | ⟨0, _⟩ => rfl | ⟨1, _⟩ => rfl)).trans ?_
  refine congrArg (x1 (ix2 q k) * ·) ?_
  refine (broadcastTo_apply (s := S1x1024) (t := S1024x1024) _ _ (ix2 q k) (ix2 (0 : Fin 1) k) (fun a => match a with
    | ⟨0, _⟩ => (if_pos rfl).symm
    | ⟨1, _⟩ => (if_neg (show ¬ (1024 : Nat) = 1 by omega)).symm)).trans ?_
  exact scale_apply i g hg k

end Cert.KernelIdeal.BlockValue

end
-- ==== Proof.ArrayValue.lean ====
import proofs.«146533_j1949915152858_1_alg».proof.Proof.ValueKernelIdeal
import proofs.«146533_j1949915152858_1_alg».proof.Proof.BlockValue
import proofs.«146533_j1949915152858_1_alg».proof.Proof.SegGram

/-!
# The kernel's result array

The grid has a point for every `(g, i, j)` with `g, i, j < 4`. Point `(g, i, j)` reads block `(i, g)` of `J_row` (rows
`1024 i ..`, columns `1024 g ..`: chunk `g`), block `(j, g)` of `J_col`, and writes block `(g, i, j)` of the result (slab
`g`, rows `1024 i ..`, columns `1024 j ..`). Entry `(0, p, q)` of what it writes is the weighted product of row `p` of
the first block with row `q` of the second — that is entry `(g, 1024 i + p, 1024 j + q)` of the segmented Gram product
of the whole arrays. The 64 blocks tile the result, so after the run the result array IS that product.
-/

noncomputable section

open scoped BigOperators

namespace Cert.KernelIdeal.ArrayValue

open Cert.KernelIdeal Cert.KernelIdeal.Gen Cert.KernelIdeal.GenP Cert.KernelIdeal.ValueP Cert.KernelIdeal.BlockValue
open Idealize.ShloMosaic Idealize.ShloMosaic.TcCoe Idealize.SL.Sem Idealize.ShloMosaic.ValueIdx Cert.SegGram
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The three index maps, decided over the 64 grid points: the first input's block is (row block, chunk), the
    second's (column block, chunk), the output's (chunk, row block, column block); the chunk is the first grid
    coordinate; every block index is below 4. -/
theorem idx_facts : ∀ t : Fin cfg0.N,
    win0_0.index t (0 : Fin 2) = win0_2.index t (1 : Fin 3)
    ∧ win0_0.index t (1 : Fin 2) = win0_2.index t (0 : Fin 3)
    ∧ win0_1.index t (0 : Fin 2) = win0_2.index t (2 : Fin 3)
    ∧ win0_1.index t (1 : Fin 2) = win0_2.index t (0 : Fin 3)
    ∧ (grid0.coords t 0).val = win0_2.index t (0 : Fin 3)
    ∧ win0_2.index t (0 : Fin 3) < 4 ∧ win0_2.index t (1 : Fin 3) < 4 ∧ win0_2.index t (2 : Fin 3) < 4 :=
  (by decide +kernel : ∀ t : Fin grid0.N, _)

/-- Every block of the result is some point's. -/
theorem idx_onto : ∀ (g i j : Fin 4), ∃ t : Fin cfg0.N, win0_2.index t = ![g.val, i.val, j.val] :=
  (by decide +kernel : ∀ (g i j : Fin 4), ∃ t : Fin grid0.N, win0_2.index t = ![g.val, i.val, j.val])

/-- The two argument arrays as the region finds them, as plain arrays of extended reals. -/
abbrev Jrow (c : Dev nD) : SA.Idx → EReal := V m c main_arg0
abbrev Jcol (c : Dev nD) : SA.Idx → EReal := V m c main_arg1

/-- WHAT POINT `t` WRITES BACK is block `t` of the segmented Gram product of the argument arrays. -/
theorem flushed_eq (c : Dev nD) (t : Fin cfg0.N) :
    (dats m 0 c).flushed 2 t = ((cfg0.win 2).blk t).view.read (Elt Ideal) (segGram (Jrow m c) (Jcol m c)) := by
  rw [flushed2]
  unfold out0_2
  rw [View.canon_unit_zero zero3]
  simp only [View.ld_unit_zero (S := S1024x1024) zero2]
  obtain ⟨e0, e1, e2, e3, e4, e5, e6, e7⟩ := idx_facts t
  funext y
  obtain ⟨z, p, q, rfl⟩ : ∃ (z : Fin 1) (p q : Fin 1024), (y : S1x1024x1024.Idx) = ix3 z p q := ⟨y 0, y 1, y 2, eq_ix3 y⟩
  obtain rfl : z = 0 := Subsingleton.elim _ _
  show k0_pay1 (F := Ideal) (grid0.coords t) (iblk m c 0 t) (iblk m c 1 t) (ix3 0 p q)
    = segGram (Jrow m c) (Jcol m c) (((cfg0.win 2).blk t).view.emb (ix3 0 p q))
  refine (pay_apply (grid0.coords t) ⟨win0_2.index t (0 : Fin 3), e5⟩ e4 (iblk m c 0 t) (iblk m c 1 t) p q).trans ?_
  unfold segGram
  refine Finset.sum_congr rfl fun k _ => ?_
  -- the chunk of the entry's slab is the point's chunk
  have hg : (((cfg0.win 2).blk t).view.emb (ix3 0 p q) : SO.Idx) 0 = (⟨win0_2.index t (0 : Fin 3), e5⟩ : Fin 4) := by
    apply Fin.ext
    show win0_2.index t (0 : Fin 3) * 1 + 1 * (0 : Fin 1).val = win0_2.index t (0 : Fin 3)
    simp
  rw [hg]
  -- the first block's entry (p, k) is J_row's entry at the slab entry's row and column k of the chunk
  have h0 : iblk m c 0 t (ix2 p k)
      = Jrow m c (ix2 ((((cfg0.win 2).blk t).view.emb (ix3 0 p q) : SO.Idx) 1) (col ⟨win0_2.index t (0 : Fin 3), e5⟩ k)) := by
    show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 1024 + 1 * p.val = win0_2.index t (1 : Fin 3) * 1024 + 1 * p.val
      rw [e0]
    | ⟨1, _⟩ =>
      show win0_0.index t (1 : Fin 2) * 1024 + 1 * k.val = 1024 * win0_2.index t (0 : Fin 3) + k.val
      rw [e1]; omega
  -- the second block's entry (q, k) likewise, of J_col
  have h1 : iblk m c 1 t (ix2 q k)
      = Jcol m c (ix2 ((((cfg0.win 2).blk t).view.emb (ix3 0 p q) : SO.Idx) 2) (col ⟨win0_2.index t (0 : Fin 3), e5⟩ k)) := by
    show V m c main_arg1 (((cfg0.win 1).blk t).view.emb (ix2 q k)) = V m c main_arg1 _
    refine congrArg (V m c main_arg1) (funext fun a => Fin.ext ?_)
    match a with
    | ⟨0, _⟩ =>
      show win0_1.index t (0 : Fin 2) * 1024 + 1 * q.val = win0_2.index t (2 : Fin 3) * 1024 + 1 * q.val
      rw [e2]
    | ⟨1, _⟩ =>
      show win0_1.index t (1 : Fin 2) * 1024 + 1 * k.val = 1024 * win0_2.index t (0 : Fin 3) + k.val
      rw [e3]; omega
  rw [h0, h1]

/-- An index of the result is in point `t`'s block iff each coordinate is in the block's range on its axis. -/
theorem mem_blk (t : Fin cfg0.N) (i : S4x4096x4096.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- THE BLOCKS TILE THE RESULT: entry `(g, r, s)` is in the block of the point `(g, r / 1024, s / 1024)`. -/
theorem cover (i : S4x4096x4096.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 4096 := (i 2).isLt
  obtain ⟨t, ht⟩ := idx_onto ⟨(i 0).val, h0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- THE RESULT ARRAY after the run is the segmented Gram product of the argument arrays. -/
theorem final (c : Dev nD) : (dats m 0 c).arrAt 2 cfg0.N = segGram (Jrow m c) (Jcol m c) :=
  (dats m 0 c).arrAt_eq_of_cover 2 (segGram (Jrow m c) (Jcol m c)) (fun t _ => flushed_eq m c t) cover

/-- The run, read: the result array at the segmented Gram product of the launch contents, the arguments unchanged. -/
theorem run : θ_run defs (onTc (τ := τ) (main (F := Ideal))) ⟨m, fun _ => 0, ρ⟩ fun r => ∀ c : Dev nD,
      r.2.mem ((c : Thread nD τ).loc main_v0)
        = segGram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.ArrayValue

end
-- ==== Proof.LibScatterOnce.lean ====
import Idealize.ShloMosaic.PureOps.ShapeOps
import Mathlib.Logic.Equiv.Defs

/-!
# A host scatter read at a result index that at most one update lands on

The host scatter is a left fold over the update indices in row-major order: the step of update
index `m` replaces the result's element at the index `m` lands on by the combiner `f` of that
element and the update's, and leaves every other element alone (an update landing outside the
operand leaves all of them alone). Observed at ONE result index `i`, the fold therefore only
moves at the steps landing on `i`. Two readings follow, for ANY combiner `f`:

* exactly one update index `n` lands on `i`: the result there is `f (x i) (upd n)` — before
  step `n` the element is still the operand's, step `n` combines, nothing moves it afterwards;
* no update index lands on `i`: the result there is the operand's `x i`.
-/

namespace Cert.Lib

open Idealize.ShloMosaic

section Fold

variable {ι σ α : Type}

/-- A left fold observed through `v`, every step but `n`'s leaving the observation alone, over a
    list in which `n` does not occur: the observation at the end is the one at the start. -/
theorem foldl_obs_skip (stp : σ → ι → σ) (v : σ → α) (n : ι)
    (hmiss : ∀ r m, m ≠ n → v (stp r m) = v r) :
    ∀ (L : List ι) (x : σ), n ∉ L → v (L.foldl stp x) = v x := by
  intro L
  induction L with
  | nil => intro x _; rfl
  | cons a L ih =>
    intro x h
    have ha : a ≠ n := fun e => h (by rw [← e]; exact List.mem_cons_self)
    rw [List.foldl_cons, ih (stp x a) (fun hn => h (List.mem_cons_of_mem a hn)), hmiss x a ha]

/-- The same fold over a list WITHOUT REPETITIONS in which `n` does occur, step `n` turning the
    observation `a` into `g a n`: the observation at the end is `g` of the one at the start. Up
    to `n` nothing has moved it, and after `n` nothing does, `n` not occurring twice. -/
theorem foldl_obs_once (stp : σ → ι → σ) (v : σ → α) (g : α → ι → α) (n : ι)
    (hhit : ∀ r, v (stp r n) = g (v r) n)
    (hmiss : ∀ r m, m ≠ n → v (stp r m) = v r) :
    ∀ (L : List ι) (x : σ), L.Nodup → n ∈ L → v (L.foldl stp x) = g (v x) n := by
  intro L
  induction L with
  | nil => intro x _ h; exact absurd h List.not_mem_nil
  | cons a L ih =>
    intro x hnd hmem
    have hnd' := List.nodup_cons.1 hnd
    rw [List.foldl_cons]
    by_cases han : a = n
    · subst han
      rw [foldl_obs_skip stp v a hmiss L (stp x a) hnd'.1, hhit]
    · have hmem' : n ∈ L := by
        rcases List.mem_cons.1 hmem with h | h
        · exact absurd h.symm han
        · exact h
      rw [ih (stp x a) hnd'.2 hmem', hmiss x a han]

end Fold

section Scatter

variable {α : Type} {s si u : Shape} {w : Nat}

/-- One step of the scatter: update index `m` (as a row-major position) combined into the result `r`. -/
def scatterStep (d : ScatterDims s si u) (f : α → α → α) (idx : IVec si w) (upd : u.Idx → α)
    (r : s.Idx → α) (m : Fin u.numel) : s.Idx → α :=
  match d.resultIdx? (u.rowMajor.symm m) idx with
  | some j => fun i' => if i' = j then f (r j) (upd (u.rowMajor.symm m)) else r i'
  | none => r

/-- The scatter is the fold of its steps. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- A step whose update index lands on `i`, read at `i`: the combiner of what was there and the update. -/
theorem scatterStep_hit (d : ScatterDims s si u) (f : α → α → α) (idx : IVec si w) (upd : u.Idx → α) (i : s.Idx)
    (r : s.Idx → α) (m : Fin u.numel) (h : d.resultIdx? (u.rowMajor.symm m) idx = some i) :
    scatterStep d f idx upd r m i = f (r i) (upd (u.rowMajor.symm m)) := by
  unfold scatterStep
  rw [h]
  exact if_pos rfl

/-- A step whose update index does not land on `i`, read at `i`: what was there. -/
theorem scatterStep_miss (d : ScatterDims s si u) (f : α → α → α) (idx : IVec si w) (upd : u.Idx → α) (i : s.Idx)
    (r : s.Idx → α) (m : Fin u.numel) (h : d.resultIdx? (u.rowMajor.symm m) idx ≠ some i) :
    scatterStep d f idx upd r m i = r i := by
  unfold scatterStep
  generalize d.resultIdx? (u.rowMajor.symm m) idx = o at h
  cases o with
  | none => rfl
  | some j =>
    have hij : i ≠ j := fun e => h (by rw [e])
    exact if_neg hij

/-- THE SCATTER AT AN INDEX HIT ONCE: `n` lands on `i` and every update index landing on `i` is
    `n`; the result at `i` is `f` of the operand's element and the update's element at `n`. -/
theorem scatter_at_hit (d : ScatterDims s si u) (f : α → α → α) (x : s.Idx → α) (idx : IVec si w) (upd : u.Idx → α)
    (i : s.Idx) (n : u.Idx) (hn : d.resultIdx? n idx = some i)
    (huniq : ∀ n' : u.Idx, d.resultIdx? n' idx = some i → n' = n) :
    Host.scatter d f x idx upd i = f (x i) (upd n) := by
  rw [scatter_eq_foldl]
  have hn' : d.resultIdx? (u.rowMajor.symm (u.rowMajor n)) idx = some i := by
    rw [Equiv.symm_apply_apply]; exact hn
  have key := foldl_obs_once (stp := scatterStep d f idx upd) (v := fun r => r i)
    (g := fun a m => f a (upd (u.rowMajor.symm m))) (n := u.rowMajor n)
    (fun r => scatterStep_hit d f idx upd i r (u.rowMajor n) hn')
    (fun r m hm => scatterStep_miss d f idx upd i r m
      (fun h => hm ((Equiv.symm_apply_eq _).1 (huniq _ h))))
    (List.finRange u.numel) x (List.nodup_finRange _) (List.mem_finRange _)
  rw [Equiv.symm_apply_apply] at key
  exact key

/-- THE SCATTER AT AN INDEX NO UPDATE LANDS ON: the operand's element. -/
theorem scatter_at_miss (d : ScatterDims s si u) (f : α → α → α) (x : s.Idx → α) (idx : IVec si w) (upd : u.Idx → α)
    (i : s.Idx) (hmiss : ∀ n : u.Idx, d.resultIdx? n idx ≠ some i) :
    Host.scatter d f x idx upd i = x i := by
  rw [scatter_eq_foldl]
  induction (List.finRange u.numel) generalizing x with
  | nil => rfl
  | cons a L ih =>
    rw [List.foldl_cons, ih, scatterStep_miss d f idx upd i x a (hmiss _)]

end Scatter

end Cert.Lib
-- ==== Proof.LibScatterRow.lean ====
import proofs.«146533_j1949915152858_1_alg».proof.Proof.LibScatterOnce
import Idealize.ShloMosaic.Lib.ValueIdx

/-!
# Scattering one `[M, N]` slab into row `c` of a `[G, M, N]` array

`x.at[c].add(u)` (or any other combiner) for `x : [G, M, N]`, `u : [M, N]` and ONE scatter index
`[c]` lowers to a scatter whose update window axes are both of `u`'s, whose inserted window axis
is the operand's axis 0, and whose index vector names that axis. Update index `(p, q)` lands on
`(c, p, q)`, the index word read SIGNED; so at `(g, p, q)` the result is the combiner of the
operand's element and `u (p, q)` when `g = c`, and the operand's element otherwise.
-/

namespace Cert.Lib

open Idealize.ShloMosaic Idealize.ShloMosaic.ValueIdx

/-- The dimension numbers: operand `[G, M, N]`, scatter indices `[1]`, updates `[M, N]`. -/
abbrev rowScatterDims (G M N : Nat)
    (wf : ScatterDims.WF ⟨3, ![G, M, N]⟩ ⟨1, ![1]⟩ ⟨2, ![M, N]⟩ [0, 1] [0] [0] 0) :
    ScatterDims ⟨3, ![G, M, N]⟩ ⟨1, ![1]⟩ ⟨2, ![M, N]⟩ where
  updateWindowDims := [0, 1]
  insertedWindowDims := [0]
  scatterDimsToOperandDims := [0]
  indexVectorDim := 0
  wf := wf

variable {G M N : Nat} (wf : ScatterDims.WF ⟨3, ![G, M, N]⟩ ⟨1, ![1]⟩ ⟨2, ![M, N]⟩ [0, 1] [0] [0] 0)

/-- On the operand's axis 0 the window starts at the index word, read signed. -/
theorem rowScatter_start0 {w : Nat} (idx : IVec ⟨1, ![1]⟩ w) (j : (⟨2, ![M, N]⟩ : Shape).Idx) :
    (rowScatterDims G M N wf).start j idx (0 : Fin 3) = (idx (ix1 0)).toInt := by
  unfold ScatterDims.start
  rw [dif_pos (show (0 : Fin 3) ∈ (rowScatterDims G M N wf).scatterDimsToOperandDims from List.mem_singleton.mpr rfl)]
  congr 2
  funext b
  match b with
  | ⟨0, _⟩ => rfl

/-- On the other two axes it starts at 0: the index vector does not name them. -/
theorem rowScatter_start1 {w : Nat} (idx : IVec ⟨1, ![1]⟩ w) (j : (⟨2, ![M, N]⟩ : Shape).Idx) :
    (rowScatterDims G M N wf).start j idx (1 : Fin 3) = 0 := by
  unfold ScatterDims.start
  rw [dif_neg (show (1 : Fin 3) ∉ ([0] : List (Fin 3)) by decide)]

theorem rowScatter_start2 {w : Nat} (idx : IVec ⟨1, ![1]⟩ w) (j : (⟨2, ![M, N]⟩ : Shape).Idx) :
    (rowScatterDims G M N wf).start j idx (2 : Fin 3) = 0 := by
  unfold ScatterDims.start
  rw [dif_neg (show (2 : Fin 3) ∉ ([0] : List (Fin 3)) by decide)]

/-- The window coordinate: nothing on the inserted axis 0, the update's two coordinates on axes 1 and 2. -/
theorem rowScatter_window0 (j : (⟨2, ![M, N]⟩ : Shape).Idx) : (rowScatterDims G M N wf).window j (0 : Fin 3) = 0 := by
  unfold ScatterDims.window
  rw [dif_neg (show (0 : Fin 3) ∉ (rowScatterDims G M N wf).sKept from (show (0 : Fin 3) ∉ (List.finRange 3).filter (· ∉ ([0] : List (Fin 3))) by decide))]

theorem rowScatter_window1 (p : Fin M) (q : Fin N) : (rowScatterDims G M N wf).window (ix2 p q) (1 : Fin 3) = p.val := by
  unfold ScatterDims.window
  rw [dif_pos (show (1 : Fin 3) ∈ (rowScatterDims G M N wf).sKept from (show (1 : Fin 3) ∈ (List.finRange 3).filter (· ∉ ([0] : List (Fin 3))) by decide))]
  rfl

theorem rowScatter_window2 (p : Fin M) (q : Fin N) : (rowScatterDims G M N wf).window (ix2 p q) (2 : Fin 3) = q.val := by
  unfold ScatterDims.window
  rw [dif_pos (show (2 : Fin 3) ∈ (rowScatterDims G M N wf).sKept from (show (2 : Fin 3) ∈ (List.finRange 3).filter (· ∉ ([0] : List (Fin 3))) by decide))]
  rfl

/-- WHERE AN UPDATE LANDS: with the index word reading `c`, update index `(p, q)` lands on `(c, p, q)`. -/
theorem rowScatter_resultIdx {w : Nat} (idx : IVec ⟨1, ![1]⟩ w) (c : Fin G) (hc : (idx (ix1 0)).toInt = (c.val : Int))
    (p : Fin M) (q : Fin N) :
    (rowScatterDims G M N wf).resultIdx? (ix2 p q) idx = some (ix3 c p q) := by
  have hin : ∀ a, 0 ≤ (rowScatterDims G M N wf).start (ix2 p q) idx a + ((rowScatterDims G M N wf).window (ix2 p q) a : Nat)
      ∧ (rowScatterDims G M N wf).start (ix2 p q) idx a + ((rowScatterDims G M N wf).window (ix2 p q) a : Nat)
        < ((⟨3, ![G, M, N]⟩ : Shape).size a : Nat) := by
    intro a
    match a with
    | ⟨0, _⟩ =>
      have h0 : (⟨3, ![G, M, N]⟩ : Shape).size (0 : Fin 3) = G := rfl
      show 0 ≤ (rowScatterDims G M N wf).start (ix2 p q) idx (0 : Fin 3) + ((rowScatterDims G M N wf).window (ix2 p q) (0 : Fin 3) : Nat) ∧
        (rowScatterDims G M N wf).start (ix2 p q) idx (0 : Fin 3) + ((rowScatterDims G M N wf).window (ix2 p q) (0 : Fin 3) : Nat) < ((⟨3, ![G, M, N]⟩ : Shape).size (0 : Fin 3) : Nat)
      rw [rowScatter_start0, rowScatter_window0, hc, h0]
      have := c.isLt
      omega
    | ⟨1, _⟩ =>
      have h1 : (⟨3, ![G, M, N]⟩ : Shape).size (1 : Fin 3) = M := rfl
      show 0 ≤ (rowScatterDims G M N wf).start (ix2 p q) idx (1 : Fin 3) + ((rowScatterDims G M N wf).window (ix2 p q) (1 : Fin 3) : Nat) ∧
        (rowScatterDims G M N wf).start (ix2 p q) idx (1 : Fin 3) + ((rowScatterDims G M N wf).window (ix2 p q) (1 : Fin 3) : Nat) < ((⟨3, ![G, M, N]⟩ : Shape).size (1 : Fin 3) : Nat)
      rw [rowScatter_start1, rowScatter_window1, h1]
      have := p.isLt
      omega
    | ⟨2, _⟩ =>
      have h2 : (⟨3, ![G, M, N]⟩ : Shape).size (2 : Fin 3) = N := rfl
      show 0 ≤ (rowScatterDims G M N wf).start (ix2 p q) idx (2 : Fin 3) + ((rowScatterDims G M N wf).window (ix2 p q) (2 : Fin 3) : Nat) ∧
        (rowScatterDims G M N wf).start (ix2 p q) idx (2 : Fin 3) + ((rowScatterDims G M N wf).window (ix2 p q) (2 : Fin 3) : Nat) < ((⟨3, ![G, M, N]⟩ : Shape).size (2 : Fin 3) : Nat)
      rw [rowScatter_start2, rowScatter_window2, h2]
      have := q.isLt
      omega
  unfold ScatterDims.resultIdx?
  rw [dif_pos hin]
  congr 1
  funext a
  refine Fin.ext ?_
  match a with
  | ⟨0, _⟩ =>
    show ((rowScatterDims G M N wf).start (ix2 p q) idx (0 : Fin 3) + ((rowScatterDims G M N wf).window (ix2 p q) (0 : Fin 3) : Nat)).toNat = c.val
    rw [rowScatter_start0, rowScatter_window0, hc]
    simp
  | ⟨1, _⟩ =>
    show ((rowScatterDims G M N wf).start (ix2 p q) idx (1 : Fin 3) + ((rowScatterDims G M N wf).window (ix2 p q) (1 : Fin 3) : Nat)).toNat = p.val
    rw [rowScatter_start1, rowScatter_window1]
    simp
  | ⟨2, _⟩ =>
    show ((rowScatterDims G M N wf).start (ix2 p q) idx (2 : Fin 3) + ((rowScatterDims G M N wf).window (ix2 p q) (2 : Fin 3) : Nat)).toNat = q.val
    rw [rowScatter_start2, rowScatter_window2]
    simp

/-- Two indices of a `[G, M, N]` array built from coordinates are equal only if the coordinates are. -/
theorem ix3_inj {a a' : Fin G} {b b' : Fin M} {c c' : Fin N} (h : (ix3 a b c : (⟨3, ![G, M, N]⟩ : Shape).Idx) = ix3 a' b' c') :
    a = a' ∧ b = b' ∧ c = c' :=
  ⟨congrFun h (0 : Fin 3), congrFun h (1 : Fin 3), congrFun h (2 : Fin 3)⟩

/-- THE ROW SCATTER READ AT `(g, p, q)`, the index word reading `c`: the combiner of the operand's
    element and the update's `(p, q)` element on row `c`, the operand's element on every other row. -/
theorem rowScatter_apply {α : Type} {w : Nat} (f : α → α → α) (x : (⟨3, ![G, M, N]⟩ : Shape).Idx → α) (idx : IVec ⟨1, ![1]⟩ w)
    (upd : (⟨2, ![M, N]⟩ : Shape).Idx → α) (c : Fin G) (hc : (idx (ix1 0)).toInt = (c.val : Int))
    (g : Fin G) (p : Fin M) (q : Fin N) :
    Host.scatter (rowScatterDims G M N wf) f x idx upd (ix3 g p q)
      = if g = c then f (x (ix3 g p q)) (upd (ix2 p q)) else x (ix3 g p q) := by
  by_cases hg : g = c
  · subst hg
    rw [if_pos rfl]
    refine scatter_at_hit _ f x idx upd (ix3 g p q) (ix2 p q) (rowScatter_resultIdx wf idx g hc p q) ?_
    intro n' hn'
    obtain ⟨p', q', rfl⟩ : ∃ (p' : Fin M) (q' : Fin N), n' = ix2 p' q' := ⟨n' 0, n' 1, eq_ix2 n'⟩
    rw [rowScatter_resultIdx wf idx g hc p' q'] at hn'
    obtain ⟨-, hp, hq⟩ := ix3_inj (Option.some.inj hn')
    rw [hp, hq]
  · rw [if_neg hg]
    refine scatter_at_miss _ f x idx upd (ix3 g p q) ?_
    intro n' hn'
    obtain ⟨p', q', rfl⟩ : ∃ (p' : Fin M) (q' : Fin N), n' = ix2 p' q' := ⟨n' 0, n' 1, eq_ix2 n'⟩
    rw [rowScatter_resultIdx wf idx c hc p' q'] at hn'
    exact hg (ix3_inj (Option.some.inj hn')).1.symm

end Cert.Lib
-- ==== Proof.RefValue.lean ====
import proofs.«146533_j1949915152858_1_alg».proof.Proof.Gen.ReferenceIdeal.Read
import proofs.«146533_j1949915152858_1_alg».proof.Proof.LibScatterRow
import proofs.«146533_j1949915152858_1_alg».proof.Proof.SegGram

/-!
# The reference's result, entry by entry

The reference starts from a `[4, 4096, 4096]` array of zeros and adds into it, slab by slab: into slab 0, 1, 2 the
plain product of the two arguments' column chunk 0, 1, 2 (`∑ k, J_row (p, c) · J_col (q, c)` over the chunk's 1024
columns `c`); into slab 3 first `1 ·` the product over the first 512 columns of chunk 3 and then `1/2 ·` the product
over its last 512. Each addition is a scatter of one `[4096, 4096]` slab at one index, so entry `(g, p, q)` of its
result is the operand's entry plus the slab's `(p, q)` entry on the indexed slab and the operand's entry elsewhere.
Read through the five additions, entry `(g, p, q)` of the result is the segmented Gram product `segGram`.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SegGram Cert.Lib

variable (x0 x1 : (⟨S4096x4096, .f32⟩ : BufTy).Contents (Elt Ideal))

/-! ## The chunk products -/

/-- Column `k` of chunk `g` of `J_row`'s row `p`, and of `J_col`'s row `q`. -/
abbrev rowAt (p : Fin 4096) (g : Fin 4) (k : Fin 1024) : EReal := x0 (ix2 p (col g k))
abbrev colAt (q : Fin 4096) (g : Fin 4) (k : Fin 1024) : EReal := x1 (ix2 q (col g k))

theorem prod0 (p q : Fin 4096) :
    val_main_v3 (F := Ideal) x0 x1 (ix2 p q) = ∑ k : Fin 1024, rowAt x0 p 0 k * colAt x1 q 0 k := by
  rw [val_main_v3_apply]
  refine Finset.sum_congr rfl fun k _ => ?_
  rw [val_main_v1_apply, val_main_v2_apply]
  congr 2 <;>
  · funext a
    match a with
    | ⟨0, _⟩ => rfl
    | ⟨1, _⟩ => exact Fin.ext (by show k.val = 1024 * 0 + k.val; omega)

theorem prod1 (p q : Fin 4096) :
    val_main_v8 (F := Ideal) x0 x1 (ix2 p q) = ∑ k : Fin 1024, rowAt x0 p 1 k * colAt x1 q 1 k := by
  rw [val_main_v8_apply]
  refine Finset.sum_congr rfl fun k _ => ?_
  rw [val_main_v6_apply, val_main_v7_apply]
  congr 2 <;>
  · funext a
    match a with
    | ⟨0, _⟩ => rfl
    | ⟨1, _⟩ => exact Fin.ext (by show 1024 + k.val = 1024 * 1 + k.val; omega)

theorem prod2 (p q : Fin 4096) :
    val_main_v13 (F := Ideal) x0 x1 (ix2 p q) = ∑ k : Fin 1024, rowAt x0 p 2 k * colAt x1 q 2 k := by
  rw [val_main_v13_apply]
  refine Finset.sum_congr rfl fun k _ => ?_
  rw [val_main_v11_apply, val_main_v12_apply]
  congr 2 <;>
  · funext a
    match a with
    | ⟨0, _⟩ => rfl
    | ⟨1, _⟩ => exact Fin.ext (by show 2048 + k.val = 1024 * 2 + k.val; omega)

/-- The first half of chunk 3. -/
theorem prod3lo (p q : Fin 4096) :
    val_main_v18 (F := Ideal) x0 x1 (ix2 p q)
      = ∑ k : Fin 512, rowAt x0 p 3 ⟨k.val, by have := k.isLt; omega⟩ * colAt x1 q 3 ⟨k.val, by have := k.isLt; omega⟩ := by
  rw [val_main_v18_apply]
  refine Finset.sum_congr rfl fun k _ => ?_
  rw [val_main_v16_apply, val_main_v17_apply]
  congr 2 <;>
  · funext a
    match a with
    | ⟨0, _⟩ => rfl
    | ⟨1, _⟩ => exact Fin.ext (by show 3072 + k.val = 1024 * 3 + k.val; omega)

/-- The second half of chunk 3. -/
theorem prod3hi (p q : Fin 4096) :
    val_main_v25 (F := Ideal) x0 x1 (ix2 p q)
      = ∑ k : Fin 512, rowAt x0 p 3 ⟨512 + k.val, by have := k.isLt; omega⟩ * colAt x1 q 3 ⟨512 + k.val, by have := k.isLt; omega⟩ := by
  rw [val_main_v25_apply]
  refine Finset.sum_congr rfl fun k _ => ?_
  rw [val_main_v23_apply, val_main_v24_apply]
  congr 2 <;>
  · funext a
    match a with
    | ⟨0, _⟩ => rfl
    | ⟨1, _⟩ => exact Fin.ext (by show 3584 + k.val = 1024 * 3 + (512 + k.val); omega)

/-! ## The additions into a slab -/

/-- The program's scatter is the row scatter of a `[4096, 4096]` slab into a `[4, 4096, 4096]` array. -/
theorem scat_eq : scatter_S4x4096x4096_S1_S4096x4096_01_0_0_0
    = rowScatterDims 4 4096 4096 Facts₀.scatter_S4x4096x4096_S1_S4096x4096_01_0_0_0_wf := rfl

/-- One addition, read at `(g, p, q)`, the index word reading `c`. -/
theorem add_slab (x : FVec Ideal S4x4096x4096 .f32) (idx : IVec S1 32) (u : FVec Ideal S4096x4096 .f32)
    (c : Fin 4) (hc : (idx (ix1 0)).toInt = (c.val : Int)) (g : Fin 4) (p q : Fin 4096) :
    Host.scatter scatter_S4x4096x4096_S1_S4096x4096_01_0_0_0 (FloatOps.addf (F := Ideal) (φ := .f32)) x idx u (ix3 g p q)
      = if g = c then x (ix3 g p q) + u (ix2 p q) else x (ix3 g p q) := by
  rw [scat_eq]
  exact rowScatter_apply _ (FloatOps.addf (F := Ideal) (φ := .f32)) x idx u c hc g p q

/-- The five index words. -/
theorem word0 : ((val_main_v4 (F := Ideal)) (ix1 0)).toInt = (((0 : Fin 4).val : Nat) : Int) := by
  rw [val_main_v4_apply, val_main_c_apply]; decide
theorem word1 : ((val_main_v9 (F := Ideal)) (ix1 0)).toInt = (((1 : Fin 4).val : Nat) : Int) := by
  rw [val_main_v9_apply, val_main_c_0_apply]; decide
theorem word2 : ((val_main_v14 (F := Ideal)) (ix1 0)).toInt = (((2 : Fin 4).val : Nat) : Int) := by
  rw [val_main_v14_apply, val_main_c_1_apply]; decide
theorem word3 : ((val_main_v21 (F := Ideal)) (ix1 0)).toInt = (((3 : Fin 4).val : Nat) : Int) := by
  rw [val_main_v21_apply, val_main_c_3_apply]; decide
theorem word3' : ((val_main_v28 (F := Ideal)) (ix1 0)).toInt = (((3 : Fin 4).val : Nat) : Int) := by
  rw [val_main_v28_apply, val_main_c_5_apply]; decide

/-- The array the additions start from is zero everywhere. -/
theorem zeros (j : S4x4096x4096.Idx) : val_main_v0 (F := Ideal) j = 0 := by
  rw [val_main_v0_apply, val_main_cst_apply]
  exact Ideal.ofBits_zero_f32

/-- The two scaled slabs added into slab 3. -/
theorem scaled_lo (p q : Fin 4096) :
    val_main_v20 (F := Ideal) x0 x1 (ix2 p q) = one32 * val_main_v18 (F := Ideal) x0 x1 (ix2 p q) := by
  rw [val_main_v20_apply, val_main_v19_apply, val_main_cst_2_apply]; rfl
theorem scaled_hi (p q : Fin 4096) :
    val_main_v27 (F := Ideal) x0 x1 (ix2 p q) = half32 * val_main_v25 (F := Ideal) x0 x1 (ix2 p q) := by
  rw [val_main_v27_apply, val_main_v26_apply, val_main_cst_4_apply]; rfl

/-! ## The result -/

/-- There are four chunks. -/
theorem chunk_cases : ∀ g : Fin 4, g = 0 ∨ g = 1 ∨ g = 2 ∨ g = 3 := by decide

/-- THE REFERENCE'S RESULT IS THE SEGMENTED GRAM PRODUCT of its two arguments. -/
theorem ref_eq : val_main_v29 (F := Ideal) x0 x1 = segGram x0 x1 := by
  funext j
  obtain ⟨g, p, q, rfl⟩ : ∃ (g : Fin 4) (p q : Fin 4096), j = ix3 g p q := ⟨j 0, j 1, j 2, eq_ix3 j⟩
  have e29 : val_main_v29 (F := Ideal) x0 x1 (ix3 g p q)
      = if g = 3 then val_main_v22 (F := Ideal) x0 x1 (ix3 g p q) + val_main_v27 (F := Ideal) x0 x1 (ix2 p q)
        else val_main_v22 (F := Ideal) x0 x1 (ix3 g p q) :=
    add_slab (val_main_v22 (F := Ideal) x0 x1) (val_main_v28 (F := Ideal)) (val_main_v27 (F := Ideal) x0 x1) 3 word3' g p q
  have e22 : val_main_v22 (F := Ideal) x0 x1 (ix3 g p q)
      = if g = 3 then val_main_v15 (F := Ideal) x0 x1 (ix3 g p q) + val_main_v20 (F := Ideal) x0 x1 (ix2 p q)
        else val_main_v15 (F := Ideal) x0 x1 (ix3 g p q) :=
    add_slab (val_main_v15 (F := Ideal) x0 x1) (val_main_v21 (F := Ideal)) (val_main_v20 (F := Ideal) x0 x1) 3 word3 g p q
  have e15 : val_main_v15 (F := Ideal) x0 x1 (ix3 g p q)
      = if g = 2 then val_main_v10 (F := Ideal) x0 x1 (ix3 g p q) + val_main_v13 (F := Ideal) x0 x1 (ix2 p q)
        else val_main_v10 (F := Ideal) x0 x1 (ix3 g p q) :=
    add_slab (val_main_v10 (F := Ideal) x0 x1) (val_main_v14 (F := Ideal)) (val_main_v13 (F := Ideal) x0 x1) 2 word2 g p q
  have e10 : val_main_v10 (F := Ideal) x0 x1 (ix3 g p q)
      = if g = 1 then val_main_v5 (F := Ideal) x0 x1 (ix3 g p q) + val_main_v8 (F := Ideal) x0 x1 (ix2 p q)
        else val_main_v5 (F := Ideal) x0 x1 (ix3 g p q) :=
    add_slab (val_main_v5 (F := Ideal) x0 x1) (val_main_v9 (F := Ideal)) (val_main_v8 (F := Ideal) x0 x1) 1 word1 g p q
  have e5 : val_main_v5 (F := Ideal) x0 x1 (ix3 g p q)
      = if g = 0 then val_main_v0 (F := Ideal) (ix3 g p q) + val_main_v3 (F := Ideal) x0 x1 (ix2 p q)
        else val_main_v0 (F := Ideal) (ix3 g p q) :=
    add_slab (val_main_v0 (F := Ideal)) (val_main_v4 (F := Ideal)) (val_main_v3 (F := Ideal) x0 x1) 0 word0 g p q
  show val_main_v29 (F := Ideal) x0 x1 (ix3 g p q)
    = ∑ k : Fin 1024, rowAt x0 p g k * (colAt x1 q g k * weight g k)
  have hcases := chunk_cases g
  refine e29.trans ?_
  rcases hcases with rfl | rfl | rfl | rfl
  · rw [if_neg (by decide)]; refine e22.trans ?_
    rw [if_neg (by decide)]; refine e15.trans ?_
    rw [if_neg (by decide)]; refine e10.trans ?_
    rw [if_neg (by decide)]; refine e5.trans ?_
    rw [if_pos rfl, zeros, prod0]
    exact (plain_chunk _ _).symm
  · rw [if_neg (by decide)]; refine e22.trans ?_
    rw [if_neg (by decide)]; refine e15.trans ?_
    rw [if_neg (by decide)]; refine e10.trans ?_
    rw [if_pos rfl, e5, if_neg (by decide), zeros, prod1]
    exact (plain_chunk _ _).symm
  · rw [if_neg (by decide)]; refine e22.trans ?_
    rw [if_neg (by decide)]; refine e15.trans ?_
    rw [if_pos rfl, e10, if_neg (by decide), e5, if_neg (by decide), zeros, prod2]
    exact (plain_chunk _ _).symm
  · rw [if_pos rfl, e22, if_pos rfl, e15, if_neg (by decide), e10, if_neg (by decide), e5, if_neg (by decide), zeros,
      scaled_lo, scaled_hi, prod3lo, prod3hi]
    exact (split_chunk _ _).symm

end Cert.ReferenceIdeal.RefValue

end
-- ==== Proof.lean ====
/- The segmented Gram product, kernel against reference.

   `J_row` and `J_col` are `[4096, 4096]` arrays whose columns fall into four chunks of 1024; the result is the
   `[4, 4096, 4096]` array whose slab `g` is `∑ k, J_row (p, 1024 g + k) · J_col (q, 1024 g + k) · w g k`, the weight `w`
   being `1/2` on the last 512 columns of the last chunk and `1` elsewhere (Proof/SegGram.lean: `segGram`).

   The kernel computes one `[1024, 1024]` block of one slab per grid point, multiplying the weight into `J_col`'s block
   before a single matrix product (Proof/BlockValue.lean: what a point stores, entry by entry; Proof/ArrayValue.lean:
   the 64 blocks tile the result, so the result array is `segGram` of the arguments). The reference adds into zeros, slab
   by slab, the plain chunk products, and for the last slab `1 ·` the first half's product and `1/2 ·` the second half's
   (Proof/RefValue.lean, over a scatter read at an index: Proof/LibScatterOnce.lean, Proof/LibScatterRow.lean). The two
   agree on the extended reals because a non-negative real factor distributes over any finite sum of extended reals
   (Proof/SegGram.lean: `split_chunk`); the narrowings to a shorter float format are the identity there, and a matrix
   product into a zero accumulator is the plain sum (Proof/LibPlainDot.lean). No finiteness of the inputs is used.

   The kernel's stored value depends on the grid point, so its frame is taken from Proof/FrameKernel.lean and
   Proof/FrameKernelIdeal.lean, and the idealized kernel's run with its result array named from Proof/ValueKernelIdeal.lean.
   The idealization rewrote no operation, so the kernel's idealization is the same text read at the exact instance. -/
import proofs.«146533_j1949915152858_1_alg».proof.Defs
import proofs.«146533_j1949915152858_1_alg».proof.Proof.Gen.Kernel
import proofs.«146533_j1949915152858_1_alg».proof.Proof.Gen.Kernel.Skeleton
import proofs.«146533_j1949915152858_1_alg».proof.Proof.Gen.Kernel.Launch
import proofs.«146533_j1949915152858_1_alg».proof.Proof.Gen.Kernel.Points
import proofs.«146533_j1949915152858_1_alg».proof.Proof.FrameKernel
import proofs.«146533_j1949915152858_1_alg».proof.Proof.Gen.KernelIdeal
import proofs.«146533_j1949915152858_1_alg».proof.Proof.Gen.KernelIdeal.Skeleton
import proofs.«146533_j1949915152858_1_alg».proof.Proof.Gen.KernelIdeal.Launch
import proofs.«146533_j1949915152858_1_alg».proof.Proof.Gen.KernelIdeal.Points
import proofs.«146533_j1949915152858_1_alg».proof.Proof.FrameKernelIdeal
import proofs.«146533_j1949915152858_1_alg».proof.Proof.ValueKernelIdeal
import proofs.«146533_j1949915152858_1_alg».proof.Proof.Gen.ReferenceIdeal
import proofs.«146533_j1949915152858_1_alg».proof.Proof.Gen.ReferenceIdeal.Run
import proofs.«146533_j1949915152858_1_alg».proof.Proof.Gen.ReferenceIdeal.Read
import proofs.«146533_j1949915152858_1_alg».proof.Proof.Gen.Pre_finite_inputs
import proofs.«146533_j1949915152858_1_alg».proof.Proof.ArrayValue
import proofs.«146533_j1949915152858_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.GenP.frame m ρ

/-- So does its reading at the exact instance. -/
theorem frame_kernelIdeal : Cert.frame_KernelIdeal := fun m ρ _ => Cert.KernelIdeal.GenP.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end with the segmented Gram product of the (agreeing) arguments in their result arrays. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
